-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) (main_arg1 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192x8192 : Shape := ⟨2, ![8192, 8192]⟩
abbrev S8192 : Shape := ⟨1, ![8192]⟩
abbrev S128x8192 : Shape := ⟨2, ![128, 8192]⟩
abbrev S128 : Shape := ⟨1, ![128]⟩
abbrev S1x8192 : Shape := ⟨2, ![1, 8192]⟩
abbrev S1 : Shape := ⟨1, ![1]⟩
abbrev S1x1 : Shape := ⟨2, ![1, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192, .f32⟩
  | .hbm, ⟨3, _⟩ => ⟨S8192, .f32⟩
  | .local _ .vmem, ⟨0, _⟩ => ⟨S128x8192, .f32⟩
  | .local _ .vmem, ⟨1, _⟩ => ⟨S128x8192, .f32⟩
  | .local _ .vmem, ⟨2, _⟩ => ⟨S128x8192, .f32⟩
  | .local _ .vmem, ⟨3, _⟩ => ⟨S128x8192, .f32⟩
  | .local _ .vmem, ⟨4, _⟩ => ⟨S128, .f32⟩
  | .local _ .vmem, ⟨5, _⟩ => ⟨S128, .f32⟩
  | .local _ .vmem, ⟨6, _⟩ => ⟨S8192, .f32⟩
  | .local _ .vmem, ⟨7, _⟩ => ⟨S8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![1], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 1 → Memref sig .tc .vmem S8192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S8192 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

class Facts₀ : Prop where
  inb_S128x8192_S128x8192_0_0 : ∀ a, (![0, 0] : Fin 2 → Nat) a + S128x8192.size a ≤ S128x8192.size a
  h_S128x8192 : 0 < S128x8192.numel
  reduces_S128x8192_S128 : S128x8192.Reduces [1] S128
  inb_S128_S128_0 : ∀ a, (![0] : Fin 1 → Nat) a + S128.size a ≤ S128.size a
  h_S128 : 0 < S128.numel
  inb_S8192_S8192_0 : ∀ a, (![0] : Fin 1 → Nat) a + S8192.size a ≤ S8192.size a
  h_S8192 : 0 < S8192.numel
  shapeCasts_S8192_S8192 : S8192.ShapeCasts S8192
  shapeCasts_S8192_S1x8192 : S8192.ShapeCasts S1x8192
  reduces_S1x8192_S1 : S1x8192.Reduces [1] S1
  shapeCasts_S1_S1x1 : S1.ShapeCasts S1x1
  inpos_S1x1_p0_0 : ∀ a, (![0, 0] : Fin 2 → Nat) a < S1x1.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8192.size a ≤ S8192x8192.size a
  hwx0_0 : ∀ i : grid0.Coords, EltTy.bits .f32 = 32 ∨ (Rect.block (s := S8192x8192) S128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x8192.size a ≤ S8192x8192.size a
  hwx0_1 : ∀ i : grid0.Coords, EltTy.bits .f32 = 32 ∨ (Rect.block (s := S8192x8192) S128x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S8192.size a
  hwx0_2 : ∀ i : grid0.Coords, EltTy.bits .f32 = 32 ∨ (Rect.block (s := S8192) S128.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8192.size a ≤ S8192.size a
  hwx1_0 : ∀ i : grid1.Coords, EltTy.bits .f32 = 32 ∨ (Rect.block (s := S8192) S8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192.size a ≤ S8192.size a
  hwx1_1 : ∀ i : grid1.Coords, EltTy.bits .f32 = 32 ∨ (Rect.block (s := S8192) S8192.size (cc1_transform_1 i) (hinb1_1 i)).WholeWords (EltTy.packing .f32)

variable [Facts₀]

abbrev win0_0 : Pipeline.Window sig grid0 :=
  Pipeline.Window.ofSpec (Memref.whole main_arg0) S128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S8192.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v1) S8192.size cc1_transform_1 reads1_1 true true 1 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S8192x8192 : Shape := ⟨2, ![8192, 8192]⟩
abbrev S_ : Shape := ⟨0, ![]⟩
abbrev S8192 : Shape := ⟨1, ![8192]⟩
abbrev S1 : Shape := ⟨1, ![1]⟩

abbrev nBuf : Space → Nat
  | .hbm => 18
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x8192, .f32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1, .f32⟩
  | .hbm, ⟨10, _⟩ => ⟨S8192, .f32⟩
  | .hbm, ⟨11, _⟩ => ⟨S8192, .f32⟩
  | .hbm, ⟨12, _⟩ => ⟨S8192, .f32⟩
  | .hbm, ⟨13, _⟩ => ⟨S_, .f32⟩
  | .hbm, ⟨14, _⟩ => ⟨S_, .f32⟩
  | .hbm, ⟨15, _⟩ => ⟨S1, .f32⟩
  | .hbm, ⟨16, _⟩ => ⟨S8192, .f32⟩
  | .hbm, ⟨17, _⟩ => ⟨S8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  reducesTo_S8192_S_d0 : S8192.ReducesTo [0] S_
  bcast_S_S1 : S_.BroadcastsInDim S1 (![] : Fin 0 → Fin S1.rank)
  bcast_S1_S8192_0 : S1.BroadcastsInDim S8192 (![0] : Fin 1 → Fin S8192.rank)

variable [Facts₀]

class Facts : Prop extends Facts₀ where

variable [Facts]
-- ==== Proof.Spec.lean ====
/-
  The mathematics both programs compute, stated once over the extended reals.

  From two 8192 × 8192 arrays `x` and `y`: the vector of row sums of their elementwise product,
  `s i = ∑ k, x (i, k) · y (i, k)`, and its softmax over the 8192 entries,
  `exp (s i − M) / ∑ k, exp (s k − M)` with `M` the largest entry of `s` (the fold of `max` from `−∞`).
  Neither program reorders a sum or distributes a product, so no finiteness of the inputs is used:
  the two sides are the same expression, up to the commutativity of the product and `max ⊥ a = a`.
-/
import Idealize.ShloMosaic.PureOps.Ideal
import Idealize.ShloMosaic.PureOps.Ideal.Laws
import Idealize.ShloMosaic.Lib.ValueIdx
import Idealize.ShloMosaic.Lib.ValueIdxRank1

noncomputable section

namespace Cert.RowSoftmax

open Idealize.ShloMosaic Idealize.ShloMosaic.ValueIdx

/-- The square input arrays' shape and the result vectors' shape. -/
abbrev Sq : Shape := ⟨2, ![8192, 8192]⟩
abbrev Ln : Shape := ⟨1, ![8192]⟩

/-- Row `i` of the elementwise product, summed: `∑ k, x (i, k) · y (i, k)`. -/
def rowDot (x y : Sq.Idx → EReal) : Ln.Idx → EReal :=
  fun i => ∑ k : Fin 8192, x (ix2 (i 0) k) * y (ix2 (i 0) k)

/-- The largest entry of a vector: the fold of `max` from `−∞` over its 8192 entries. -/
def top (v : Ln.Idx → EReal) : EReal :=
  (Finset.univ : Finset (Fin 8192)).fold max ⊥ (fun k => v (ix1 k))

/-- The sum of the shifted exponentials, the softmax's denominator. -/
def expSum (v : Ln.Idx → EReal) : EReal :=
  ∑ k : Fin 8192, Ideal.exp (v (ix1 k) - top v)

/-- The softmax of a vector, shifted by its largest entry. -/
def softmax (v : Ln.Idx → EReal) : Ln.Idx → EReal :=
  fun i => Ideal.div (Ideal.exp (v i - top v)) (expSum v)

/-- The product under the row sum may be taken in either order. -/
theorem rowDot_comm (x y : Sq.Idx → EReal) : rowDot y x = rowDot x y := by
  funext i
  unfold rowDot
  exact Finset.sum_congr rfl fun k _ => mul_comm _ _

/-- A sum over a vector's indices is the sum over its coordinate range. -/
theorem sum_idx (f : Ln.Idx → EReal) : ∑ j : Ln.Idx, f j = ∑ k : Fin 8192, f (ix1 k) :=
  (Equiv.sum_comp (idxEquiv1 (n := 8192)).symm f).symm

/-- The fold of `max` over a vector's indices is the fold over its coordinate range. -/
theorem fold_idx (v : Ln.Idx → EReal) : (Finset.univ : Finset Ln.Idx).fold max ⊥ v = top v := by
  unfold top
  rw [← Finset.map_univ_equiv (idxEquiv1 (n := 8192)).symm, Finset.fold_map]
  rfl

end Cert.RowSoftmax

end
-- ==== Proof.KernelPayload.lean ====
/-
  The two kernel bodies' stored values, read over the extended reals.

  The first body, on a block of 128 rows of the two inputs, stores for each row the sum over the row's 8192 lanes of
  the elementwise product. The second body, on the whole vector of row sums, takes its largest entry (a lane maximum
  from `−∞` of the vector laid out as one row), subtracts it, exponentiates, sums the exponentials (a lane sum of the
  one-row layout) and divides: the shifted softmax of `Spec.lean`.
-/
import proofs.«121112_j86277303042418_1_alg».proof.Proof.Gen.KernelIdeal.Skeleton
import proofs.«121112_j86277303042418_1_alg».proof.Proof.Spec
import Idealize.ShloMosaic.Lib.ValueLayout
import Idealize.ShloMosaic.Lib.Pipeline.Value

noncomputable section

namespace Cert.RowSoftmax.Ker

open Idealize.ShloMosaic Idealize.ShloMosaic.ValueIdx Cert.KernelIdeal Cert.KernelIdeal.Gen Cert.RowSoftmax

/-- Inserting lane `k` into row `r` of a 128-row block gives the block's index `(r, k)`. -/
theorem lift_rows (r : Fin 128) (k : Fin 8192) :
    (reduces_S128x8192_S128 : S128x8192.Reduces [1] S128).lift (ix1 r) k = ix2 r k :=
  funext fun a => Fin.ext (by match a with | ⟨0, _⟩ => rfl | ⟨1, _⟩ => rfl)

/-- The first body's stored value at row `r` of its block: the row's lane sum of the two blocks' product. -/
theorem pay_rows (x0 x1 : Vec Ideal S128x8192 .f32) (r : Fin 128) :
    k0_pay1 (F := Ideal) x0 x1 (ix1 r) = ∑ k : Fin 8192, x0 (ix2 r k) * x1 (ix2 r k) := by
  unfold k0_pay1
  refine (Ideal.multiReduction_add_single (mulf x0 x1) _ reduces_S128x8192_S128 _ _ (ix1 r)).trans ?_
  refine Finset.sum_congr rfl fun k _ => ?_
  exact congrArg (fun j => x0 j * x1 j) (lift_rows r k)

/-- Inserting lane `k` into the one row of the one-row layout gives its index `(0, k)`. -/
theorem lift_lane (k : Fin 8192) :
    (Gen.reduces_S1x8192_S1 : S1x8192.Reduces [1] S1).lift (ix1 (0 : Fin 1)) k = ix2 (0 : Fin 1) k :=
  funext fun a => Fin.ext (by match a with | ⟨0, _⟩ => rfl | ⟨1, _⟩ => rfl)

/-- The one entry of a one-entry vector, read through its 1 × 1 layout. -/
theorem extract_one (y : FVec Ideal S1 .f32) :
    extractAt ![0, 0] (shapeCast S1x1 y Gen.shapeCasts_S1_S1x1) Gen.inpos_S1x1_p0_0 = y (ix1 (0 : Fin 1)) := by
  unfold extractAt
  exact shapeCast_apply y Gen.shapeCasts_S1_S1x1 _ (ix1 (0 : Fin 1)) (by
    rw [Shape.rowMajor_val_two, Shape.rowMajor_val_one]; rfl)

/-- The pattern of `−∞` denotes the least extended real. -/
theorem ofBits_neg_inf : Ideal.ofBits .f32 0xFF800000#32 = (⊥ : EReal) := by
  simp [Ideal.ofBits, Ideal.ieee]

/-- The lane maximum from `−∞` of a vector laid out as one row is the vector's largest entry. -/
theorem lane_max (v : FVec Ideal S8192 .f32) :
    extractAt ![0, 0] (shapeCast S1x1 (multiReduction .maximumf [1] S1 (shapeCast S1x8192 v Gen.shapeCasts_S8192_S1x8192)
      0xFF800000#32 Gen.reduces_S1x8192_S1 (.inl rfl) rfl) Gen.shapeCasts_S1_S1x1) Gen.inpos_S1x1_p0_0 = top v := by
  rw [extract_one]
  refine (Ideal.multiReduction_maximumf_single (shapeCast S1x8192 v Gen.shapeCasts_S8192_S1x8192) _
    Gen.reduces_S1x8192_S1 _ _ (ix1 (0 : Fin 1))).trans ?_
  rw [Ideal.ofBits_def, ofBits_neg_inf]
  unfold top
  refine congrArg (fun f => (Finset.univ : Finset (Fin 8192)).fold max ⊥ f) ?_
  funext k
  exact (congrArg (shapeCast S1x8192 v Gen.shapeCasts_S8192_S1x8192) (lift_lane k)).trans
    (shapeCast_a_1a_apply v Gen.shapeCasts_S8192_S1x8192 0 k)

/-- The lane sum from `0` of a vector laid out as one row is the sum of the vector's entries. -/
theorem lane_sum (v : FVec Ideal S8192 .f32) :
    extractAt ![0, 0] (shapeCast S1x1 (multiReduction .add [1] S1 (shapeCast S1x8192 v Gen.shapeCasts_S8192_S1x8192)
      0x00000000#32 Gen.reduces_S1x8192_S1 (.inl rfl) rfl) Gen.shapeCasts_S1_S1x1) Gen.inpos_S1x1_p0_0
      = ∑ k : Fin 8192, v (ix1 k) := by
  rw [extract_one]
  refine (Ideal.multiReduction_add_single (shapeCast S1x8192 v Gen.shapeCasts_S8192_S1x8192) _
    Gen.reduces_S1x8192_S1 _ _ (ix1 (0 : Fin 1))).trans ?_
  refine Finset.sum_congr rfl fun k _ => ?_
  exact (congrArg (shapeCast S1x8192 v Gen.shapeCasts_S8192_S1x8192) (lift_lane k)).trans
    (shapeCast_a_1a_apply v Gen.shapeCasts_S8192_S1x8192 0 k)

/-- The second body's stored value is the shifted softmax of the vector it loads. -/
theorem pay_softmax (x : Vec Ideal S8192 .f32) : k1_pay1 (F := Ideal) x = softmax x := by
  unfold k1_pay1
  dsimp only
  rw [shapeCast_self, lane_max]
  funext i
  unfold softmax expSum
  show Ideal.div (Ideal.exp (x i - top x)) _ = _
  refine congrArg (Ideal.div (Ideal.exp (x i - top x))) ?_
  exact lane_sum (exp (subf x (broadcast S8192 (top x))))

end Cert.RowSoftmax.Ker

end
-- ==== Proof.KernelValue.lean ====
/-
  What the two regions leave in the result arrays, as whole-array functions of the arguments.

  Region one runs over 64 points; point `t` fetches rows `128 t … 128 t + 127` of both inputs (all 8192 lanes) and
  writes back entries `128 t … 128 t + 127` of the row-sum vector, so entry `i` is written by point `i / 128` and the
  blocks cover the vector: it ends holding `rowDot` of the two arguments. Region two has one point whose blocks are
  the whole vectors: it reads the row sums region one left and writes their softmax; it does not write the row sums,
  which therefore end as region one left them.
-/
import proofs.«121112_j86277303042418_1_alg».proof.Proof.Gen.KernelIdeal.Frame
import proofs.«121112_j86277303042418_1_alg».proof.Proof.KernelPayload
import proofs.«121112_j86277303042418_1_alg».proof.Proof.KernelRun
import Idealize.ShloMosaic.Lib.Pipeline.Value

set_option maxRecDepth 16384

noncomputable section

namespace Cert.RowSoftmax.KerValue

open Idealize.ShloMosaic Idealize.ShloMosaic.TcCoe Idealize.ShloMosaic.ValueIdx Idealize.SL.Sem
open Cert.KernelIdeal Cert.KernelIdeal.Gen Cert.RowSoftmax

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl

/-! ## Region one: the row sums -/

/-- The first body's stored value at any index of its block, by the row the index names. -/
theorem pay_rows_at (x0 x1 : Vec Ideal S128x8192 .f32) (j : S128.Idx) :
    k0_pay1 (F := Ideal) x0 x1 j = ∑ k : Fin 8192, x0 (ix2 (j 0) k) * x1 (ix2 (j 0) k) :=
  (congrArg (k0_pay1 (F := Ideal) x0 x1) (eq_ix1 j)).trans (Ker.pay_rows x0 x1 (j 0))

/-- The printed index maps over the grid: both inputs' row blocks move with the output's block and sit at lane block
    `0`; the output's block index stays below 64. -/
theorem idx_rows : ∀ t : Fin cfg0.N, win0_0.index t (0 : Fin 2) = win0_2.index t (0 : Fin 1)
    ∧ win0_0.index t (1 : Fin 2) = 0
    ∧ win0_1.index t (0 : Fin 2) = win0_2.index t (0 : Fin 1)
    ∧ win0_1.index t (1 : Fin 2) = 0
    ∧ win0_2.index t (0 : Fin 1) < 64 :=
  (by decide +kernel : ∀ t : Fin grid0.N, _)

/-- Every one of the 64 output blocks is some point's. -/
theorem idx_rows_onto : ∀ q : Fin 64, ∃ t : Fin cfg0.N, win0_2.index t = ![q.val] :=
  (by decide +kernel : ∀ q : Fin 64, ∃ t : Fin grid0.N, win0_2.index t = ![q.val])

/-- What point `t` writes back is block `t` of the row sums of the arguments as the region finds them. -/
theorem flushed_rows (c : Dev nD) (t : Fin cfg0.N) :
    (dat0 (V0 m ρ) c).flushed 2 t
      = ((cfg0.win 2).blk t).view.read (Elt Ideal) (rowDot (V0 m ρ c main_arg0) (V0 m ρ c main_arg1)) := by
  show (cfg0.win 2).cut (grid0.coords t) ((dat0 (V0 m ρ) c).after 2 t) = _
  rw [after0_2]
  unfold out0_2
  rw [View.canon_unit_zero hz1]
  simp only [View.ld_unit_zero (S := S128x8192) hz2]
  obtain ⟨e0, e1, e2, e3, e4⟩ := idx_rows t
  funext j
  refine (pay_rows_at _ _ j).trans ?_
  show _ = rowDot (V0 m ρ c main_arg0) (V0 m ρ c main_arg1) (((cfg0.win 2).blk t).view.emb j)
  unfold rowDot
  refine Finset.sum_congr rfl fun k _ => ?_
  have h0 : iblk0 (V0 m ρ) c 0 t (ix2 (j 0) k)
      = V0 m ρ c main_arg0 (ix2 ((((cfg0.win 2).blk t).view.emb j) 0) k) := by
    show V0 m ρ c main_arg0 (((cfg0.win 0).blk t).view.emb (ix2 (j 0) k)) = _
    refine congrArg (V0 m ρ c main_arg0) (funext fun a => Fin.ext ?_)
    match a with
    | ⟨0, _⟩ => show win0_0.index t (0 : Fin 2) * 128 + 1 * (j 0).val = win0_2.index t (0 : Fin 1) * 128 + 1 * (j 0).val; omega
    | ⟨1, _⟩ => show win0_0.index t (1 : Fin 2) * 8192 + 1 * k.val = k.val; omega
  have h1 : iblk0 (V0 m ρ) c 1 t (ix2 (j 0) k)
      = V0 m ρ c main_arg1 (ix2 ((((cfg0.win 2).blk t).view.emb j) 0) k) := by
    show V0 m ρ c main_arg1 (((cfg0.win 1).blk t).view.emb (ix2 (j 0) k)) = _
    refine congrArg (V0 m ρ c main_arg1) (funext fun a => Fin.ext ?_)
    match a with
    | ⟨0, _⟩ => show win0_1.index t (0 : Fin 2) * 128 + 1 * (j 0).val = win0_2.index t (0 : Fin 1) * 128 + 1 * (j 0).val; omega
    | ⟨1, _⟩ => show win0_1.index t (1 : Fin 2) * 8192 + 1 * k.val = k.val; omega
  rw [h0, h1]

/-- An entry of the vector is in point `t`'s block iff it lies in the block's 128 entries. -/
theorem mem_rows (t : Fin cfg0.N) (i : S8192.Idx) :
    i ∈ ((cfg0.win 2).blk t).view.set ↔ ∀ a : Fin 1, win0_2.index t a * S128.size a ≤ (i a).val ∧ (i a).val < win0_2.index t a * S128.size a + S128.size a := by
  show i ∈ ((View.whole main_v0).slice (win0_2.rect t)).set ↔ _
  rw [View.set_slice_whole, Rect.mem_set_unit]
  exact Iff.rfl

/-- Entry `i` is written back by the point whose block index is `i / 128`. -/
theorem cover_rows (i : S8192.Idx) :
    ∃ t : Fin cfg0.N, (cfg0.win 2).flush t = true ∧ i ∈ ((cfg0.win 2).blk t).view.set := by
  have hi : (i 0).val < 8192 := (i 0).isLt
  obtain ⟨t, ht⟩ := idx_rows_onto ⟨(i 0).val / 128, by omega⟩
  have q0 : win0_2.index t (0 : Fin 1) = (i 0).val / 128 := congrFun ht 0
  refine ⟨t, flush0_2 t, ?_⟩
  rw [mem_rows]
  intro a
  match a with
  | ⟨0, _⟩ => show win0_2.index t (0 : Fin 1) * 128 ≤ (i 0).val ∧ (i 0).val < win0_2.index t (0 : Fin 1) * 128 + 128; omega

/-- Region one leaves the row sums of the two arguments in its result array. -/
theorem rows_final (c : Dev nD) :
    (dat0 (V0 m ρ) c).arrAt 2 cfg0.N = rowDot (V0 m ρ c main_arg0) (V0 m ρ c main_arg1) :=
  (dat0 (V0 m ρ) c).arrAt_eq_of_cover 2 _ (fun t _ => flushed_rows m ρ c t) cover_rows

/-- So region two is entered with the row sums in the array it reads. -/
theorem entry_rows (c : Dev nD) :
    V1 m ρ c main_v0 = rowDot (m ((c.tc : Thread nD τ).loc main_arg0)) (m ((c.tc : Thread nD τ).loc main_arg1)) :=
  (W1_arr m ρ c 2).trans (rows_final m ρ c)

/-! ## Region two: the softmax -/

/-- The one point's blocks are the whole vectors: both block indices are `0`. -/
theorem idx_soft : ∀ t : Fin cfg1.N, win1_0.index t (0 : Fin 1) = 0 ∧ win1_1.index t (0 : Fin 1) = 0 :=
  (by decide +kernel : ∀ t : Fin grid1.N, _)

/-- What the point writes back is the softmax of the vector the region finds in its input array. -/
theorem flushed_soft (c : Dev nD) (t : Fin cfg1.N) :
    (dat1 (V1 m ρ) c).flushed 1 t
      = ((cfg1.win 1).blk t).view.read (Elt Ideal) (softmax (V1 m ρ c main_v0)) := by
  show (cfg1.win 1).cut (grid1.coords t) ((dat1 (V1 m ρ) c).after 1 t) = _
  rw [after1_1]
  unfold out1_1
  rw [View.canon_unit_zero hz1]
  simp only [View.ld_unit_zero (S := S8192) hz1]
  obtain ⟨e0, e1⟩ := idx_soft t
  have hb : (iblk1 (V1 m ρ) c 0 t : Vec Ideal S8192 .f32) = V1 m ρ c main_v0 := by
    funext y
    show V1 m ρ c main_v0 (((cfg1.win 0).blk t).view.emb y) = V1 m ρ c main_v0 y
    refine congrArg (V1 m ρ c main_v0) (funext fun a => Fin.ext ?_)
    match a with
    | ⟨0, _⟩ => show win1_0.index t (0 : Fin 1) * 8192 + 1 * (y 0).val = (y 0).val; omega
  funext j
  refine (congrFun (Ker.pay_softmax _) j).trans ?_
  refine (congrFun (congrArg softmax hb) j).trans ?_
  show softmax (V1 m ρ c main_v0) j = softmax (V1 m ρ c main_v0) (((cfg1.win 1).blk t).view.emb j)
  refine congrArg (softmax (V1 m ρ c main_v0)) (funext fun a => Fin.ext ?_)
  match a with
  | ⟨0, _⟩ => show (j 0).val = win1_1.index t (0 : Fin 1) * 8192 + 1 * (j 0).val; omega

/-- The one block is the whole vector, so every entry is written back. -/
theorem cover_soft (i : S8192.Idx) :
    ∃ t : Fin cfg1.N, (cfg1.win 1).flush t = true ∧ i ∈ ((cfg1.win 1).blk t).view.set := by
  have hi : (i 0).val < 8192 := (i 0).isLt
  obtain ⟨e0, e1⟩ := idx_soft t1_0
  refine ⟨t1_0, flush1_1 t1_0, ?_⟩
  show i ∈ ((View.whole main_v1).slice (win1_1.rect t1_0)).set
  rw [View.set_slice_whole, Rect.mem_set_unit]
  intro a
  match a with
  | ⟨0, _⟩ => show win1_1.index t1_0 (0 : Fin 1) * 8192 ≤ (i 0).val ∧ (i 0).val < win1_1.index t1_0 (0 : Fin 1) * 8192 + 8192; omega

/-! ## The two result arrays after the run -/

/-- The softmax result: region two's output array, written whole from the row sums it was entered with. -/
theorem result_soft (c : Dev nD) : W2 m ρ c (Proc.devRef .tc main_v1)
    = softmax (rowDot (m ((c.tc : Thread nD τ).loc main_arg0)) (m ((c.tc : Thread nD τ).loc main_arg1))) :=
  (W2_arr m ρ c 1).trans (((dat1 (V1 m ρ) c).arrAt_eq_of_cover 1 _ (fun t _ => flushed_soft m ρ c t) cover_soft).trans
    (congrArg softmax (entry_rows m ρ c)))

/-- The row-sum result: region two only reads it, so it ends as region one left it. -/
theorem result_rows (c : Dev nD) : W2 m ρ c (Proc.devRef .tc main_v0)
    = rowDot (m ((c.tc : Thread nD τ).loc main_arg0)) (m ((c.tc : Thread nD τ).loc main_arg1)) :=
  calc W2 m ρ c (Proc.devRef .tc main_v0)
    _ = (dat1 (V1 m ρ) c).arrAt 0 cfg1.N := W2_arr m ρ c 0
    _ = V1 m ρ c main_v0 := ((dat1 (V1 m ρ) c).arrAt_in 0 rfl _).trans (A_eq1 (V1 m ρ) c 0)
    _ = _ := entry_rows m ρ c

/-- The kernel's run: it terminates with the softmax of the row sums and the row sums in its two result arrays,
    the arguments unchanged. -/
theorem run : θ_run defs (onTc (τ := τ) (main (F := Ideal))) ⟨m, fun _ => 0, ρ⟩ (fun r => ∀ c : Dev nD,
      r.2.mem ((c.tc : Thread nD τ).loc main_v1)
        = softmax (rowDot (m ((c.tc : Thread nD τ).loc main_arg0)) (m ((c.tc : Thread nD τ).loc main_arg1)))
      ∧ r.2.mem ((c.tc : Thread nD τ).loc main_v0)
        = rowDot (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_soft m ρ c), (h c).2.1.trans (result_rows m ρ c),
      (h c).2.2.1, (h c).2.2.2⟩)
    (Cert.KernelIdeal.GenRun.run_main m ρ)

end Cert.RowSoftmax.KerValue

end
-- ==== Proof.RefSide.lean ====
/-
  The reference program's two results, read over the extended reals, are the functions of `Spec.lean`.

  Its first stage multiplies the second argument by the first elementwise and sums each row from `0`: the row sums
  `rowDot`, by commutativity of the product. Its softmax takes the largest row sum as a fold of `max` from `−∞`
  (joined once more with `−∞`, which changes nothing), broadcasts it, subtracts, exponentiates, sums from `0` and
  divides.
-/
import proofs.«121112_j86277303042418_1_alg».proof.Proof.Gen.ReferenceIdeal.Run
import proofs.«121112_j86277303042418_1_alg».proof.Proof.Gen.ReferenceIdeal.Read
import proofs.«121112_j86277303042418_1_alg».proof.Proof.Spec

noncomputable section

namespace Cert.RowSoftmax.Ref

open Idealize.ShloMosaic Idealize.ShloMosaic.ValueIdx Cert.RowSoftmax
open Cert.ReferenceIdeal Cert.ReferenceIdeal.Gen Cert.ReferenceIdeal.Read

/-- The pattern of `−∞` denotes the least extended real. -/
theorem ofBits_neg_inf : Ideal.ofBits .f32 0xFF800000#32 = (⊥ : EReal) := by
  simp [Ideal.ofBits, Ideal.ieee]

/-- The index the row sum reads at lane `k` of row `i` is `(i, k)`. -/
theorem idx_row (i : S8192.Idx) (k : Fin 8192) : idx_main_v1 i k = ix2 (i 0) k :=
  funext fun a => by match a with | ⟨0, _⟩ => rfl | ⟨1, _⟩ => rfl

/-- The reference's row sums: its product is taken in the other order, which the extended reals do not see. -/
theorem rowsum_eq (x0 x1 : FVec Ideal S8192x8192 .f32) : val_main_v1 (F := Ideal) x0 x1 = rowDot x0 x1 := by
  rw [← rowDot_comm]
  funext i
  rw [val_main_v1_apply]
  unfold rowDot
  simp only [val_main_cst_apply, idx_row, Ideal.ofBits_def, Ideal.ofBits_zero_f32, zero_add]
  rfl

/-- The reference's maximum, the fold of `max` from `−∞` joined with `−∞`, is the vector's largest entry. -/
theorem top_eq (x0 x1 : FVec Ideal S8192x8192 .f32) (i : S_.Idx) :
    val_main_v3 (F := Ideal) x0 x1 i = top (val_main_v1 (F := Ideal) x0 x1) := by
  rw [val_main_v3_apply, val_main_cst_1_apply]
  unfold val_main_v2
  generalize val_main_v1 (F := Ideal) x0 x1 = v
  refine (congrArg (FloatOps.maximumf (F := Ideal) (φ := .f32) (FloatOps.ofBits .f32 0xFF800000#32))
    (Host.reduce_eq_fold (FloatOps.maximumf (F := Ideal) (φ := .f32)) v (val_main_cst_0 (F := Ideal))
      reducesTo_S8192_S_d0 h_S_ i)).trans ?_
  rw [Finset.filter_true_of_mem fun j _ => funext fun b => b.elim0]
  rw [val_main_cst_0_apply, Ideal.ofBits_def, ofBits_neg_inf, Ideal.maximumf_def, bot_sup_eq]
  exact fold_idx v

/-- The reference's shifted exponentials, entry by entry. -/
theorem exps_eq (x0 x1 : FVec Ideal S8192x8192 .f32) (j : S8192.Idx) :
    val_main_v7 (F := Ideal) x0 x1 j
      = Ideal.exp (val_main_v1 (F := Ideal) x0 x1 j - top (val_main_v1 (F := Ideal) x0 x1)) := by
  rw [val_main_v7_apply, val_main_v6_apply, val_main_v5_apply, val_main_v4_apply, top_eq]
  rfl

/-- The reference's second result is the softmax of its row sums: the sum of the exponentials runs from `0` over
    every index of the vector, which is its coordinate range. -/
theorem softmax_eq (x0 x1 : FVec Ideal S8192x8192 .f32) :
    val_main_v11 (F := Ideal) x0 x1 = softmax (val_main_v1 (F := Ideal) x0 x1) := by
  funext i
  rw [val_main_v11_apply, val_main_v10_apply, val_main_v9_apply, val_main_v8_apply, exps_eq,
    val_main_cst_2_apply, Ideal.ofBits_def, Ideal.ofBits_zero_f32, zero_add, Ideal.hostDivf_def]
  unfold softmax expSum
  refine congrArg (Ideal.div _) ?_
  refine (sum_idx _).trans ?_
  exact Finset.sum_congr rfl fun k _ => exps_eq x0 x1 (ix1 k)

end Cert.RowSoftmax.Ref

end
-- ==== Proof.lean ====
/-
  The kernel computes, from two 8192 × 8192 arrays, the row sums of their elementwise product and the softmax of that
  vector; the reference computes the same two vectors on the host. Over the extended reals both are the functions of
  Proof/Spec.lean: `rowDot` (the reference multiplies in the other order, and the product commutes) and `softmax`
  of it (the reference joins its maximum once more with `−∞`, which is the identity). No sum is reordered and nothing is
  distributed, so the inputs' finiteness is not used.

  Proof/KernelPayload.lean reads the two kernel bodies' stored values; Proof/KernelRun.lean restates the generated
  run of @main with the result arrays kept; Proof/KernelValue.lean turns the blocks written back into whole arrays;
  Proof/RefSide.lean reads the reference's stages. Here the five claims are assembled: the three frames from the
  generated runs, `preserves` (no rewrite was applied, so it is `True`), and the equality of results.
-/
import proofs.«121112_j86277303042418_1_alg».proof.Defs
import proofs.«121112_j86277303042418_1_alg».proof.Proof.Gen.Kernel
import proofs.«121112_j86277303042418_1_alg».proof.Proof.Gen.Kernel.Skeleton
import proofs.«121112_j86277303042418_1_alg».proof.Proof.Gen.Kernel.Launch
import proofs.«121112_j86277303042418_1_alg».proof.Proof.Gen.Kernel.Points
import proofs.«121112_j86277303042418_1_alg».proof.Proof.Gen.Kernel.Frame
import proofs.«121112_j86277303042418_1_alg».proof.Proof.Gen.KernelIdeal
import proofs.«121112_j86277303042418_1_alg».proof.Proof.Gen.KernelIdeal.Skeleton
import proofs.«121112_j86277303042418_1_alg».proof.Proof.Gen.KernelIdeal.Launch
import proofs.«121112_j86277303042418_1_alg».proof.Proof.Gen.KernelIdeal.Points
import proofs.«121112_j86277303042418_1_alg».proof.Proof.Gen.KernelIdeal.Frame
import proofs.«121112_j86277303042418_1_alg».proof.Proof.Gen.ReferenceIdeal
import proofs.«121112_j86277303042418_1_alg».proof.Proof.Gen.ReferenceIdeal.Run
import proofs.«121112_j86277303042418_1_alg».proof.Proof.Gen.ReferenceIdeal.Read
import proofs.«121112_j86277303042418_1_alg».proof.Proof.Gen.Pre_finite_inputs
import proofs.«121112_j86277303042418_1_alg».proof.Proof.KernelValue
import proofs.«121112_j86277303042418_1_alg».proof.Proof.RefSide
import Idealize.ShloMosaic.Adequacy
import Idealize.ShloMosaic.Init

noncomputable section

namespace Cert.Proof

open Idealize.ShloMosaic Idealize.ShloMosaic.TcCoe Idealize.SL.Sem Cert.RowSoftmax

/-- The word-level kernel runs and keeps its arguments: the generated frame over its two regions. -/
theorem frame_k : Cert.frame_Kernel := fun m ρ _ => Cert.Kernel.Gen.frame m ρ

/-- The same for the kernel read over the extended reals. -/
theorem frame_ki : Cert.frame_KernelIdeal := fun m ρ _ => Cert.KernelIdeal.Gen.frame m ρ

/-- The reference's generated run, its two results dropped. -/
theorem frame_ri : Cert.frame_ReferenceIdeal := fun m ρ _ =>
  (θ_run Cert.ReferenceIdeal.defs _ _).mono (fun _ h c => (h c).2.2)
    (Cert.ReferenceIdeal.Value.run (F := Ideal) m ρ)

/-- Both programs end with the softmax of the row sums and the row sums, of arguments that agree. -/
theorem algebraic : Cert.algebraic_KernelIdeal_ReferenceIdeal := by
  intro m ρ m' ρ' _ hagree
  refine ⟨_, _, KerValue.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v11_eq, Ref.softmax_eq, Ref.rowsum_eq, (hagree c).1, (hagree c).2]
  · rw [(h c).2.1, Cert.ReferenceIdeal.Read.val_main_v1_eq, Ref.rowsum_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
